-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) (main_arg2 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x256x56x56 : Shape := ⟨4, ![64, 256, 56, 56]⟩
abbrev S256 : Shape := ⟨1, ![256]⟩
abbrev S1x256x1x1 : Shape := ⟨4, ![1, 256, 1, 1]⟩
abbrev S2x256x56x56 : Shape := ⟨4, ![2, 256, 56, 56]⟩
abbrev S2x256x56 : Shape := ⟨3, ![2, 256, 56]⟩
abbrev S2x256x56x1 : Shape := ⟨4, ![2, 256, 56, 1]⟩
abbrev S2x256x1 : Shape := ⟨3, ![2, 256, 1]⟩
abbrev S2x256x1x1 : Shape := ⟨4, ![2, 256, 1, 1]⟩
abbrev S256x1x1 : Shape := ⟨3, ![256, 1, 1]⟩
abbrev S_ : Shape := ⟨0, ![]⟩

abbrev nBuf : Space → Nat
  | .hbm => 23
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S1x256x1x1, .f32⟩
  | .hbm, ⟨4, _⟩ => ⟨S1x256x1x1, .f32⟩
  | .hbm, ⟨5, _⟩ => ⟨S_, .f32⟩
  | .hbm, ⟨6, _⟩ => ⟨S1x256x1x1, .f32⟩
  | .hbm, ⟨7, _⟩ => ⟨S1x256x1x1, .f32⟩
  | .hbm, ⟨8, _⟩ => ⟨S_, .f32⟩
  | .hbm, ⟨9, _⟩ => ⟨S1x256x1x1, .f32⟩
  | .hbm, ⟨10, _⟩ => ⟨S1x256x1x1, .f32⟩
  | .hbm, ⟨11, _⟩ => ⟨S1x256x1x1, .f32⟩
  | .hbm, ⟨12, _⟩ => ⟨S1x256x1x1, .f32⟩
  | .hbm, ⟨13, _⟩ => ⟨S1x256x1x1, .f32⟩
  | .hbm, ⟨14, _⟩ => ⟨S1x256x1x1, .f32⟩
  | .hbm, ⟨15, _⟩ => ⟨S_, .f32⟩
  | .hbm, ⟨16, _⟩ => ⟨S1x256x1x1, .f32⟩
  | .hbm, ⟨17, _⟩ => ⟨S1x256x1x1, .f32⟩
  | .hbm, ⟨18, _⟩ => ⟨S1x256x1x1, .f32⟩
  | .hbm, ⟨19, _⟩ => ⟨S1x256x1x1, .f32⟩
  | .hbm, ⟨20, _⟩ => ⟨S1x256x1x1, .f32⟩
  | .hbm, ⟨21, _⟩ => ⟨S1x256x1x1, .f32⟩
  | .hbm, ⟨22, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S1x256x1x1, .f32⟩
  | .local _ .vmem, ⟨3, _⟩ => ⟨S1x256x1x1, .f32⟩
  | .local _ .vmem, ⟨4, _⟩ => ⟨S2x256x56x56, .f32⟩
  | .local _ .vmem, ⟨5, _⟩ => ⟨S2x256x56x56, .f32⟩
  | .local _ .vmem, ⟨6, _⟩ => ⟨S1x256x1x1, .f32⟩
  | .local _ .vmem, ⟨7, _⟩ => ⟨S1x256x1x1, .f32⟩
  | .local _ .vmem, ⟨8, _⟩ => ⟨S2x256x56x56, .f32⟩
  | .local _ .vmem, ⟨9, _⟩ => ⟨S2x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256x1x1_S1x256x1x1_0_0_0_0 : ∀ a, (![0, 0, 0, 0] : Fin 4 → Nat) a + S1x256x1x1.size a ≤ S1x256x1x1.size a
  h_S1x256x1x1 : 0 < S1x256x1x1.numel
  inb_S2x256x56x56_S2x256x56x56_0_0_0_0 : ∀ a, (![0, 0, 0, 0] : Fin 4 → Nat) a + S2x256x56x56.size a ≤ S2x256x56x56.size a
  h_S2x256x56x56 : 0 < S2x256x56x56.numel
  reduces_S2x256x56x56_S2x256x56 : S2x256x56x56.Reduces [3] S2x256x56
  shapeCasts_S2x256x56_S2x256x56x1 : S2x256x56.ShapeCasts S2x256x56x1
  reduces_S2x256x56x1_S2x256x1 : S2x256x56x1.Reduces [2] S2x256x1
  shapeCasts_S2x256x1_S2x256x1x1 : S2x256x1.ShapeCasts S2x256x1x1
  reduces_S2x256x1x1_S256x1x1 : S2x256x1x1.Reduces [0] S256x1x1
  shapeCasts_S256x1x1_S1x256x1x1 : S256x1x1.ShapeCasts S1x256x1x1
  shapeCasts_S1x256x1x1_S1x256x1x1 : S1x256x1x1.ShapeCasts S1x256x1x1
  bcast_S_S1x256x1x1 : S_.BroadcastsInDim S1x256x1x1 (![] : Fin 0 → Fin S1x256x1x1.rank)
  shapeCasts_S256_S1x256x1x1 : S256.ShapeCasts S1x256x1x1
  broadcasts_S1x256x1x1_S2x256x56x56 : S1x256x1x1.Broadcasts S2x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S1x256x1x1.size a
  hwx0_1 : ∀ i : grid0.Coords, EltTy.bits .f32 = 32 ∨ (Rect.block (s := S1x256x1x1) S1x256x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1x1.size a ≤ S1x256x1x1.size a
  hwx0_2 : ∀ i : grid0.Coords, EltTy.bits .f32 = 32 ∨ (Rect.block (s := S1x256x1x1) S1x256x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x56x56.size a ≤ S64x256x56x56.size a
  hwx1_0 : ∀ i : grid1.Coords, EltTy.bits .f32 = 32 ∨ (Rect.block (s := S64x256x56x56) S2x256x56x56.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S1x256x1x1.size a
  hwx1_1 : ∀ i : grid1.Coords, EltTy.bits .f32 = 32 ∨ (Rect.block (s := S1x256x1x1) S1x256x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256x1x1.size a ≤ S1x256x1x1.size a
  hwx1_2 : ∀ i : grid1.Coords, EltTy.bits .f32 = 32 ∨ (Rect.block (s := S1x256x1x1) S1x256x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x256x56x56.size a ≤ S64x256x56x56.size a
  hwx1_3 : ∀ i : grid1.Coords, EltTy.bits .f32 = 32 ∨ (Rect.block (s := S64x256x56x56) S2x256x56x56.size (cc1_transform_3 i) (hinb1_3 i)).WholeWords (EltTy.packing .f32)

variable [Facts₀]

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256x1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x256x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x256x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S_ : Shape := ⟨0, ![]⟩
abbrev S1x256x1x1 : Shape := ⟨4, ![1, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S1x256x1x1, .f32⟩
  | .hbm, ⟨6, _⟩ => ⟨S_, .f32⟩
  | .hbm, ⟨7, _⟩ => ⟨S1x256x1x1, .f32⟩
  | .hbm, ⟨8, _⟩ => ⟨S1x256x1x1, .f32⟩
  | .hbm, ⟨9, _⟩ => ⟨S64x256x56x56, .f32⟩
  | .hbm, ⟨10, _⟩ => ⟨S64x256x56x56, .f32⟩
  | .hbm, ⟨11, _⟩ => ⟨S64x256x56x56, .f32⟩
  | .hbm, ⟨12, _⟩ => ⟨S_, .f32⟩
  | .hbm, ⟨13, _⟩ => ⟨S256, .f32⟩
  | .hbm, ⟨14, _⟩ => ⟨S1x256x1x1, .f32⟩
  | .hbm, ⟨15, _⟩ => ⟨S_, .f32⟩
  | .hbm, ⟨16, _⟩ => ⟨S1x256x1x1, .f32⟩
  | .hbm, ⟨17, _⟩ => ⟨S1x256x1x1, .f32⟩
  | .hbm, ⟨18, _⟩ => ⟨S_, .f32⟩
  | .hbm, ⟨19, _⟩ => ⟨S1x256x1x1, .f32⟩
  | .hbm, ⟨20, _⟩ => ⟨S1x256x1x1, .f32⟩
  | .hbm, ⟨21, _⟩ => ⟨S1x256x1x1, .f32⟩
  | .hbm, ⟨22, _⟩ => ⟨S64x256x56x56, .f32⟩
  | .hbm, ⟨23, _⟩ => ⟨S64x256x56x56, .f32⟩
  | .hbm, ⟨24, _⟩ => ⟨S64x256x56x56, .f32⟩
  | .hbm, ⟨25, _⟩ => ⟨S64x256x56x56, .f32⟩
  | .hbm, ⟨26, _⟩ => ⟨S1x256x1x1, .f32⟩
  | .hbm, ⟨27, _⟩ => ⟨S64x256x56x56, .f32⟩
  | .hbm, ⟨28, _⟩ => ⟨S64x256x56x56, .f32⟩
  | .hbm, ⟨29, _⟩ => ⟨S1x256x1x1, .f32⟩
  | .hbm, ⟨30, _⟩ => ⟨S64x256x56x56, .f32⟩
  | .hbm, ⟨31, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S64x256x56x56_S256_d0_2_3 : S64x256x56x56.ReducesTo [0, 2, 3] S256
  h_S_ : 0 < S_.numel
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S64x256x56x56_0_1_2_3 : S1x256x1x1.BroadcastsInDim S64x256x56x56 (![0, 1, 2, 3] : Fin 4 → Fin S64x256x56x56.rank)
  shapeCasts_S256_S1x256x1x1 : S256.ShapeCasts S1x256x1x1

variable [Facts₀]

class Facts : Prop extends Facts₀ where

variable [Facts]
-- ==== Proof.Spec.lean ====
/-
  Training-mode batch normalisation of an array x of shape [64, 256, 56, 56] with per-channel weight g and bias b
  (both of shape [256]), written two ways as functions of the coordinates (batch, channel, row, column) over the
  extended reals.

  Every statistic of channel `ch` is taken over the 64 · 56 · 56 = 200704 entries x[·, ch, ·, ·]:
    S ch = ∑ x,   Q ch = ∑ x²,   μ ch = S ch / n,   n the count as the program spells it (a binary32 word).
  One-pass form (the kernel's): the variance is Q/n − μ², the result x · (g · rsqrt(var + ε)) + (b − μ · (g · rsqrt(var + ε))).
  Two-pass form (the reference's): the variance is ∑ (x − μ)² / n, the result ((x − μ) · rsqrt(var + ε)) · g + b.
-/
import Idealize.ShloMosaic.PureOps.Ideal
import Idealize.ShloMosaic.Lib.ValueIdx

noncomputable section

open scoped BigOperators

namespace Cert.BatchNorm

open Idealize.ShloMosaic Idealize.ShloMosaic.ValueIdx

/-- The whole array's shape, one grid point's block of two batch entries, a per-channel column, a per-channel vector. -/
abbrev SX : Shape := ⟨4, ![64, 256, 56, 56]⟩
abbrev SB : Shape := ⟨4, ![2, 256, 56, 56]⟩
abbrev SP : Shape := ⟨4, ![1, 256, 1, 1]⟩
abbrev SC : Shape := ⟨1, ![256]⟩

/-- The count 64 · 56 · 56 and the epsilon, as the binary32 words both programs spell. -/
abbrev nW : EReal := Ideal.ofBits .f32 0x48440000#32
abbrev eW : EReal := Ideal.ofBits .f32 0x3727C5AC#32

/-- The sum of channel `ch` of `x`: over batch, row and column. -/
def chanSum (x : SX.Idx → EReal) (ch : Fin 256) : EReal :=
  ∑ b : Fin 64, ∑ h : Fin 56, ∑ w : Fin 56, x (ix4 b ch h w)

/-- The channel's mean and its mean of squares. -/
def mean (x : SX.Idx → EReal) (ch : Fin 256) : EReal := Ideal.div (chanSum x ch) nW
def sqMean (x : SX.Idx → EReal) (ch : Fin 256) : EReal := Ideal.div (chanSum (fun i => x i * x i) ch) nW

/-- One-pass: the scale g · rsqrt(E[x²] − μ² + ε) and the shift b − μ · scale of a channel. -/
def scale1 (x : SX.Idx → EReal) (g : SC.Idx → EReal) (ch : Fin 256) : EReal :=
  g (ix1 ch) * Ideal.rsqrt ((sqMean x ch - mean x ch * mean x ch) + eW)
def shift1 (x : SX.Idx → EReal) (g b : SC.Idx → EReal) (ch : Fin 256) : EReal :=
  b (ix1 ch) - mean x ch * scale1 x g ch
/-- One-pass result at (bb, ch, h, w). -/
def onePass (x : SX.Idx → EReal) (g b : SC.Idx → EReal) (bb : Fin 64) (ch : Fin 256) (h w : Fin 56) : EReal :=
  x (ix4 bb ch h w) * scale1 x g ch + shift1 x g b ch

/-- Two-pass: the channel's mean of squared deviations. -/
def devMean (x : SX.Idx → EReal) (ch : Fin 256) : EReal :=
  Ideal.div (∑ b : Fin 64, ∑ h : Fin 56, ∑ w : Fin 56,
    (x (ix4 b ch h w) - mean x ch) * (x (ix4 b ch h w) - mean x ch)) nW
/-- Two-pass result at (bb, ch, h, w). -/
def twoPass (x : SX.Idx → EReal) (g b : SC.Idx → EReal) (bb : Fin 64) (ch : Fin 256) (h w : Fin 56) : EReal :=
  ((x (ix4 bb ch h w) - mean x ch) * Ideal.rsqrt (devMean x ch + eW)) * g (ix1 ch) + b (ix1 ch)

/-- The one-pass result as an array. -/
def onePassArr (x : SX.Idx → EReal) (g b : SC.Idx → EReal) : SX.Idx → EReal :=
  fun i => onePass x g b (i 0) (i 1) (i 2) (i 3)

end Cert.BatchNorm

end
-- ==== Proof.Law.lean ====
/-
  The two forms of training-mode batch normalisation agree on real inputs.

  For a channel with n = 200704 = 64 · 56 · 56 real entries xᵢ, sum S, sum of squares Q and mean μ = S / n:
    ∑ (xᵢ − μ)² = Q − 2 μ S + n μ²,   hence   ∑ (xᵢ − μ)² / n = Q / n − μ².
  So the one-pass variance Q/n − μ² and the two-pass variance ∑ (xᵢ − μ)² / n are one real v ≥ 0. With ε > 0 the
  argument v + ε of the reciprocal square root is a positive real, its value is the real (√(v + ε))⁻¹ = s, and
    x · (g · s) + (b − μ · (g · s)) = ((x − μ) · s) · g + b
  is an identity of real numbers.
-/
import proofs.«159732_j180388626599_1_alg».proof.Proof.Spec
import Mathlib.Data.EReal.Basic
import Mathlib.Algebra.BigOperators.Ring.Finset
import Mathlib.Algebra.Order.BigOperators.Ring.Finset
import Mathlib.Data.Fintype.BigOperators
import Mathlib.Analysis.SpecialFunctions.Sqrt
import Mathlib.Tactic.Ring
import Mathlib.Tactic.FieldSimp
import Mathlib.Tactic.Positivity
import Mathlib.Tactic.NormNum

noncomputable section

open scoped BigOperators

namespace Cert.BatchNorm

open Idealize.ShloMosaic Idealize.ShloMosaic.ValueIdx

/-- The count word denotes the real 200704 = 64 · 56 · 56. -/
theorem nW_eq : nW = ((200704 : ℝ) : EReal) := by
  simp [nW, Ideal.ofBits, Ideal.ieee, -EReal.coe_mul]; norm_num

/-- The epsilon word has a clear sign bit and an exponent field that is neither zero nor all ones: it denotes a
    positive real, the product of a positive natural number and a power of two. -/
theorem eW_pos : ∃ e : ℝ, 0 < e ∧ eW = (e : EReal) := by
  simp [eW, Ideal.ofBits, Ideal.ieee, -EReal.coe_mul]

/-! ### Real-number facts -/

/-- The coercion of the reals into the extended reals goes through a finite sum. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over n summands with mean μ = S / n, the mean of the squared deviations is the mean of the squares less μ²:
    ∑ (fᵢ − μ)² = ∑ fᵢ² − 2 μ S + n μ². -/
private theorem var_id {ι : Type*} [Fintype ι] (f : ι → ℝ) (n : ℝ) (hn : (Fintype.card ι : ℝ) = n) (hn0 : n ≠ 0) :
    (∑ i, (f i - (∑ j, f j) * (1 / n)) * (f i - (∑ j, f j) * (1 / n))) * (1 / n)
      = (∑ i, f i * f i) * (1 / n) - ((∑ j, f j) * (1 / n)) * ((∑ j, f j) * (1 / n)) := by
  set S := ∑ j, f j with hS
  have h1 : ∑ i, (f i - S * (1 / n)) * (f i - S * (1 / n))
      = (∑ i, f i * f i) - 2 * (S * (1 / n)) * S + n * ((S * (1 / n)) * (S * (1 / n))) := by
    have : ∀ i, (f i - S * (1 / n)) * (f i - S * (1 / n))
        = f i * f i - 2 * (S * (1 / n)) * f i + (S * (1 / n)) * (S * (1 / n)) := fun i => by ring
    simp only [this]
    rw [Finset.sum_add_distrib, Finset.sum_sub_distrib, ← Finset.mul_sum, Finset.sum_const, Finset.card_univ,
      nsmul_eq_mul, hn]
  rw [h1]
  field_simp
  ring

/-- The real statistics of channel `ch`: sum, sum of squares, mean, sum of squared deviations from the mean. -/
private def rS (xr : SX.Idx → ℝ) (ch : Fin 256) : ℝ :=
  ∑ b : Fin 64, ∑ h : Fin 56, ∑ w : Fin 56, xr (ix4 b ch h w)
private def rQ (xr : SX.Idx → ℝ) (ch : Fin 256) : ℝ :=
  ∑ b : Fin 64, ∑ h : Fin 56, ∑ w : Fin 56, xr (ix4 b ch h w) * xr (ix4 b ch h w)
private def rM (xr : SX.Idx → ℝ) (ch : Fin 256) : ℝ := rS xr ch * (1 / 200704)
private def rD (xr : SX.Idx → ℝ) (ch : Fin 256) : ℝ :=
  ∑ b : Fin 64, ∑ h : Fin 56, ∑ w : Fin 56, (xr (ix4 b ch h w) - rM xr ch) * (xr (ix4 b ch h w) - rM xr ch)

/-- The variance identity of a channel: the three nested sums run over the 64 · 56 · 56 = 200704 triples. -/
private theorem rD_eq (xr : SX.Idx → ℝ) (ch : Fin 256) :
    rD xr ch * (1 / 200704) = rQ xr ch * (1 / 200704) - rM xr ch * rM xr ch := by
  have hc : (Fintype.card (Fin 64 × Fin 56 × Fin 56) : ℝ) = 200704 := by
    simp only [Fintype.card_prod, Fintype.card_fin]; norm_num
  have := var_id (ι := Fin 64 × Fin 56 × Fin 56) (fun p => xr (ix4 p.1 ch p.2.1 p.2.2)) 200704 hc (by norm_num)
  simpa only [Fintype.sum_prod_type, rD, rQ, rM, rS] using this

/-- A sum of squares is not negative. -/
private theorem rD_nonneg (xr : SX.Idx → ℝ) (ch : Fin 256) : 0 ≤ rD xr ch :=
  Finset.sum_nonneg fun _ _ => Finset.sum_nonneg fun _ _ => Finset.sum_nonneg fun _ _ => mul_self_nonneg _

/-! ### The statistics of a real array, as coerced reals -/

/-- The channel's sum, sum of squares and sum of squared deviations of a real array are the coerced real sums. -/
private theorem chanSum_coe (xr : SX.Idx → ℝ) (ch : Fin 256) :
    chanSum (fun i => (xr i : EReal)) ch = ((rS xr ch : ℝ) : EReal) := by
  simp only [chanSum, rS, coe_sum]

private theorem chanSum_sq_coe (xr : SX.Idx → ℝ) (ch : Fin 256) :
    chanSum (fun i => (xr i : EReal) * (xr i : EReal)) ch = ((rQ xr ch : ℝ) : EReal) := by
  simp only [chanSum, rQ, coe_sum, EReal.coe_mul]

private theorem devSum_coe (xr : SX.Idx → ℝ) (ch : Fin 256) :
    (∑ b : Fin 64, ∑ h : Fin 56, ∑ w : Fin 56,
        (((xr (ix4 b ch h w) : ℝ) : EReal) - ((rM xr ch : ℝ) : EReal))
          * (((xr (ix4 b ch h w) : ℝ) : EReal) - ((rM xr ch : ℝ) : EReal)))
      = ((rD xr ch : ℝ) : EReal) := by
  simp only [rD, coe_sum, EReal.coe_mul, EReal.coe_sub]

/-- Division by the count word is the product with the real 1 / 200704. -/
private theorem div_nW (y : EReal) : Ideal.div y nW = y * ((1 / 200704 : ℝ) : EReal) := by
  rw [nW_eq, Ideal.div_coe (by norm_num)]

private theorem mean_coe (xr : SX.Idx → ℝ) (ch : Fin 256) :
    mean (fun i => (xr i : EReal)) ch = ((rM xr ch : ℝ) : EReal) := by
  rw [mean, div_nW, chanSum_coe, ← EReal.coe_mul, rM]

private theorem sqMean_coe (xr : SX.Idx → ℝ) (ch : Fin 256) :
    sqMean (fun i => (xr i : EReal)) ch = ((rQ xr ch * (1 / 200704) : ℝ) : EReal) := by
  rw [sqMean, div_nW, chanSum_sq_coe, ← EReal.coe_mul]

private theorem devMean_coe (xr : SX.Idx → ℝ) (ch : Fin 256) :
    devMean (fun i => (xr i : EReal)) ch = ((rD xr ch * (1 / 200704) : ℝ) : EReal) := by
  rw [devMean, div_nW, mean_coe, devSum_coe, ← EReal.coe_mul]

/-! ### The two forms agree -/

theorem onePass_eq_twoPass (x : SX.Idx → EReal) (g b : SC.Idx → EReal)
    (hx : ∀ i, ∃ r : ℝ, x i = (r : EReal)) (hg : ∀ j, ∃ r : ℝ, g j = (r : EReal)) (hb : ∀ j, ∃ r : ℝ, b j = (r : EReal))
    (bb : Fin 64) (ch : Fin 256) (h w : Fin 56) :
    onePass x g b bb ch h w = twoPass x g b bb ch h w := by
  -- real witnesses of the three arrays
  choose xr hxr using hx
  choose gr hgr using hg
  choose br hbr using hb
  obtain rfl : x = fun i => (xr i : EReal) := funext hxr
  obtain rfl : g = fun j => (gr j : EReal) := funext hgr
  obtain rfl : b = fun j => (br j : EReal) := funext hbr
  obtain ⟨e, he, heW⟩ := eW_pos
  -- the common variance v = rD / n is not negative, so v + ε is a positive real
  have hv : rQ xr ch * (1 / 200704) - rM xr ch * rM xr ch = rD xr ch * (1 / 200704) := (rD_eq xr ch).symm
  have hpos : 0 < rD xr ch * (1 / 200704) + e := by
    have := rD_nonneg xr ch
    positivity
  -- both reciprocal square roots are the real (√(v + ε))⁻¹
  have hr2 : Ideal.rsqrt (((rD xr ch * (1 / 200704) : ℝ) : EReal) + (e : EReal))
      = (((Real.sqrt (rD xr ch * (1 / 200704) + e))⁻¹ : ℝ) : EReal) := by
    rw [← EReal.coe_add, Ideal.rsqrt_coe, if_neg (not_lt.mpr hpos.le), if_neg hpos.ne']
  have hr1 : Ideal.rsqrt ((((rQ xr ch * (1 / 200704) : ℝ) : EReal) - (rM xr ch : EReal) * (rM xr ch : EReal)) + (e : EReal))
      = (((Real.sqrt (rD xr ch * (1 / 200704) + e))⁻¹ : ℝ) : EReal) := by
    rw [← EReal.coe_mul, ← EReal.coe_sub, hv, hr2]
  simp only [onePass, twoPass, scale1, shift1, mean_coe, sqMean_coe, devMean_coe, heW, hr1, hr2]
  -- what is left is an identity of real numbers
  have hreal : xr (ix4 bb ch h w) * (gr (ix1 ch) * (Real.sqrt (rD xr ch * (1 / 200704) + e))⁻¹)
        + (br (ix1 ch) - rM xr ch * (gr (ix1 ch) * (Real.sqrt (rD xr ch * (1 / 200704) + e))⁻¹))
      = (xr (ix4 bb ch h w) - rM xr ch) * (Real.sqrt (rD xr ch * (1 / 200704) + e))⁻¹ * gr (ix1 ch) + br (ix1 ch) := by
    ring
  exact_mod_cast hreal

end Cert.BatchNorm

end
-- ==== Proof.Finite.lean ====
import proofs.«159732_j180388626599_1_alg».proof.Proof.Spec
import proofs.«159732_j180388626599_1_alg».proof.Proof.Gen.Pre_finite_inputs
import Idealize.ShloMosaic.Lib.ReduceAll

noncomputable section

open scoped BigOperators

namespace Cert.BatchNorm

open Idealize.ShloMosaic Idealize.ShloMosaic.ValueIdx

/-- The binary32 word 0x7F800000 (sign 0, exponent all ones, significand 0) denotes +∞. -/
private theorem infWord_eq_top : Ideal.ofBits .f32 0x7F800000#32 = (⊤ : EReal) := by
  simp [Ideal.ofBits, Ideal.ieee]

/-- An extended real whose absolute value max v (−v) lies strictly below +∞ is a real number:
    v = +∞ gives max = +∞, and v = −∞ gives −v = +∞ and again max = +∞, so neither passes the strict comparison. -/
private theorem real_of_abs_lt_inf (v : EReal)
    (h : Ideal.cmp .olt (max v (-v)) (Ideal.ofBits .f32 0x7F800000#32) = 1#1) : ∃ r : ℝ, v = (r : EReal) := by
  rw [infWord_eq_top] at h
  induction v using EReal.rec with
  | bot => simp [Ideal.cmp] at h
  | coe r => exact ⟨r, rfl⟩
  | top => simp [Ideal.cmp] at h

/-- The rank-0 shape has exactly one index: two functions out of the empty coordinate set agree. -/
private instance : Subsingleton Cert.Pre_finite_inputs.S_.Idx := ⟨fun a b => funext fun d => d.elim0⟩

/-- The precondition read back. Its value at the one index of the scalar result is the conjunction
    (all |x| < +∞) ∧ (all |g| < +∞) ∧ (all |b| < +∞); the conjunction being 1 makes each conjunct 1, a reduction by
    "and" over every axis being 1 makes every compared element 1, and an element with |v| < +∞ is real. -/
theorem finite_of_pre (x : SX.Idx → EReal) (g b : SC.Idx → EReal)
    (hpre : Cert.Pre_finite_inputs.fn (F := Ideal) x g b = fun _ => 1#1) :
    (∀ i, ∃ r : ℝ, x i = (r : EReal)) ∧ (∀ j, ∃ r : ℝ, g j = (r : EReal)) ∧ (∀ j, ∃ r : ℝ, b j = (r : EReal)) := by
  have h0 := congrFun hpre ValueIdx.ix0
  unfold Cert.Pre_finite_inputs.fn at h0
  dsimp only at h0
  obtain ⟨hxg, hb⟩ := IntOp.andi_eq_one.1 h0
  obtain ⟨hx, hg⟩ := IntOp.andi_eq_one.1 hxg
  refine ⟨fun i => ?_, fun j => ?_, fun j => ?_⟩
  · exact real_of_abs_lt_inf (x i) (Host.reduce_andi_all _ _ _ _ _ hx i)
  · exact real_of_abs_lt_inf (g j) (Host.reduce_andi_all _ _ _ _ _ hg j)
  · exact real_of_abs_lt_inf (b j) (Host.reduce_andi_all _ _ _ _ _ hb j)

end Cert.BatchNorm

end
-- ==== Proof.RefValue.lean ====
import proofs.«159732_j180388626599_1_alg».proof.Proof.Spec
import proofs.«159732_j180388626599_1_alg».proof.Proof.Gen.ReferenceIdeal.Read
import Idealize.ShloMosaic.Lib.IdealHost
import Idealize.ShloMosaic.PureOps.Ideal.Laws

/-!
  The reference's result, read at one index.

  The reference computes, per channel, the sum of the entries, divides by the count to get the mean, subtracts the
  mean, squares, sums again and divides for the variance, and finally scales by rsqrt(var + ε), by the weight, and
  adds the bias. Every step but the two sums reads one element of each operand, so it is followed index by index.
  A sum over the axes (batch, row, column) at channel `ch` adds the entries whose channel coordinate is `ch`: the
  indices of the whole array are the quadruples (b, c, h, w), those that drop to `ch` are the ones with c = ch, and the
  sum over them is the triple sum over (b, h, w).
-/

noncomputable section

open scoped BigOperators

namespace Cert.BatchNorm.Ref

open Idealize.ShloMosaic Idealize.ShloMosaic.ValueIdx Cert.BatchNorm

/-! ## The array's indices are the quadruples of coordinates -/

/-- An index of the [64, 256, 56, 56] array is its four coordinates. -/
private def idxEquiv4 : SX.Idx ≃ Fin 64 × Fin 256 × Fin 56 × Fin 56 where
  toFun i := (i 0, i 1, i 2, i 3)
  invFun p := ix4 p.1 p.2.1 p.2.2.1 p.2.2.2
  left_inv i := (eq_ix4 i).symm
  right_inv _ := rfl

/-- So a sum over the array's indices is the fourfold sum over the coordinates. -/
private theorem sum_idx4 {M : Type*} [AddCommMonoid M] (f : SX.Idx → M) :
    ∑ i, f i = ∑ a : Fin 64, ∑ c : Fin 256, ∑ h : Fin 56, ∑ w : Fin 56, f (ix4 a c h w) := by
  rw [← Equiv.sum_comp idxEquiv4.symm f, Fintype.sum_prod_type]
  refine Finset.sum_congr rfl fun a _ => ?_
  rw [Fintype.sum_prod_type]
  refine Finset.sum_congr rfl fun c _ => ?_
  rw [Fintype.sum_prod_type]
  rfl

/-! ## The sum over batch, row and column at a channel -/

/-- Dropping the axes 0, 2 and 3 of (b, c, h, w) leaves the channel coordinate. -/
private theorem drop_ix4 (hr : SX.ReducesTo [0, 2, 3] SC) (b : Fin 64) (c : Fin 256) (h w : Fin 56) :
    hr.drop (ix4 b c h w) = ix1 c := by
  funext a
  match a with
  | ⟨0, _⟩ => rfl

/-- Two rank-one indices agree only if their coordinates do. -/
private theorem ix1_inj {c c' : Fin 256} (e : (ix1 c : SC.Idx) = ix1 c') : c = c' := congrFun e 0

/-- The host's sum over the axes 0, 2, 3 from zero, at channel `ch`, is the triple sum over batch, row and column of
    the entries of that channel. -/
private theorem hostReduceAdd_chan (hr : SX.ReducesTo [0, 2, 3] SC) (y : SX.Idx → EReal) (ch : Fin 256) :
    Ideal.hostReduceAdd hr y 0 (ix1 ch) = ∑ b : Fin 64, ∑ h : Fin 56, ∑ w : Fin 56, y (ix4 b ch h w) := by
  unfold Ideal.hostReduceAdd
  rw [zero_add, Finset.sum_filter, sum_idx4]
  refine Finset.sum_congr rfl fun b _ => ?_
  rw [Finset.sum_eq_single ch]
  · refine Finset.sum_congr rfl fun h _ => Finset.sum_congr rfl fun w _ => ?_
    rw [if_pos (drop_ix4 hr b ch h w)]
  · intro c _ hc
    refine Finset.sum_eq_zero fun h _ => Finset.sum_eq_zero fun w _ => ?_
    rw [if_neg]
    rw [drop_ix4]
    exact fun e => hc (ix1_inj e)
  · intro hn
    exact absurd (Finset.mem_univ _) hn

/-! ## Where each stage reads its operand -/

open Cert.ReferenceIdeal.Read

/-- A per-channel column broadcast to the whole array is read at the index's channel. -/
private theorem idx_v4 (bb : Fin 64) (ch : Fin 256) (h w : Fin 56) :
    idx_main_v4 (ix4 bb ch h w) = (ix4 0 ch 0 0 : SP.Idx) := by
  funext a
  match a with
  | ⟨0, _⟩ => rfl
  | ⟨1, _⟩ => rfl
  | ⟨2, _⟩ => rfl
  | ⟨3, _⟩ => rfl
private theorem idx_v14 (bb : Fin 64) (ch : Fin 256) (h w : Fin 56) :
    idx_main_v14 (ix4 bb ch h w) = (ix4 0 ch 0 0 : SP.Idx) := idx_v4 bb ch h w
private theorem idx_v16 (bb : Fin 64) (ch : Fin 256) (h w : Fin 56) :
    idx_main_v16 (ix4 bb ch h w) = (ix4 0 ch 0 0 : SP.Idx) := idx_v4 bb ch h w
private theorem idx_v19 (bb : Fin 64) (ch : Fin 256) (h w : Fin 56) :
    idx_main_v19 (ix4 bb ch h w) = (ix4 0 ch 0 0 : SP.Idx) := idx_v4 bb ch h w
private theorem idx_v22 (bb : Fin 64) (ch : Fin 256) (h w : Fin 56) :
    idx_main_v22 (ix4 bb ch h w) = (ix4 0 ch 0 0 : SP.Idx) := idx_v4 bb ch h w

/-- A per-channel vector broadcast to a column is read at the column's channel. -/
private theorem idx_v1 (ch : Fin 256) : idx_main_v1 (ix4 0 ch 0 0 : SP.Idx) = ix1 ch := by
  funext a
  match a with
  | ⟨0, _⟩ => rfl
private theorem idx_v8 (ch : Fin 256) : idx_main_v8 (ix4 0 ch 0 0 : SP.Idx) = ix1 ch := idx_v1 ch

/-- A per-channel vector reshaped to a column: position ((0 · 256 + ch) · 1 + 0) · 1 + 0 = ch. -/
private theorem idx_v18 (ch : Fin 256) : idx_main_v18 (ix4 0 ch 0 0 : SP.Idx) = ix1 ch := by
  funext a
  match a with
  | ⟨0, _⟩ => exact Fin.ext (by show ((0 * 256 + ch.val) * 1 + 0) * 1 + 0 = ch.val; omega)
private theorem idx_v21 (ch : Fin 256) : idx_main_v21 (ix4 0 ch 0 0 : SP.Idx) = ix1 ch := idx_v18 ch

/-! ## The statistics -/

/-- The first sum is the channel's sum. -/
private theorem v0_chan (x : SX.Idx → EReal) (ch : Fin 256) :
    val_main_v0 (F := Ideal) x (ix1 ch) = chanSum x ch := by
  have e : val_main_v0 (F := Ideal) x (ix1 ch)
      = Ideal.hostReduceAdd _ x (Ideal.ofBits .f32 0x00000000#32) (ix1 ch) := rfl
  rw [e, Ideal.ofBits_zero_f32, hostReduceAdd_chan]
  rfl

/-- The column of means holds the channel's mean. -/
private theorem v3_chan (x : SX.Idx → EReal) (ch : Fin 256) :
    val_main_v3 (F := Ideal) x (ix4 0 ch 0 0 : SP.Idx) = mean x ch := by
  rw [val_main_v3_apply, val_main_v1_apply, idx_v1, v0_chan, val_main_v2_apply, val_main_cst_0_apply]
  rfl

/-- The deviations: each entry minus its channel's mean. -/
private theorem v5_chan (x : SX.Idx → EReal) (bb : Fin 64) (ch : Fin 256) (h w : Fin 56) :
    val_main_v5 (F := Ideal) x (ix4 bb ch h w) = x (ix4 bb ch h w) - mean x ch := by
  rw [val_main_v5_apply, val_main_v4_apply, idx_v4, v3_chan]
  rfl

/-- The second sum is the channel's sum of squared deviations. -/
private theorem v7_chan (x : SX.Idx → EReal) (ch : Fin 256) :
    val_main_v7 (F := Ideal) x (ix1 ch)
      = ∑ b : Fin 64, ∑ h : Fin 56, ∑ w : Fin 56,
          (x (ix4 b ch h w) - mean x ch) * (x (ix4 b ch h w) - mean x ch) := by
  have e : val_main_v7 (F := Ideal) x (ix1 ch)
      = Ideal.hostReduceAdd _ (val_main_v6 (F := Ideal) x) (Ideal.ofBits .f32 0x00000000#32) (ix1 ch) := rfl
  rw [e, Ideal.ofBits_zero_f32, hostReduceAdd_chan]
  refine Finset.sum_congr rfl fun b _ => Finset.sum_congr rfl fun h _ => Finset.sum_congr rfl fun w _ => ?_
  rw [val_main_v6_apply, v5_chan]
  rfl

/-- The column of reciprocal standard deviations holds rsqrt of the channel's mean squared deviation plus ε. -/
private theorem v13_chan (x : SX.Idx → EReal) (ch : Fin 256) :
    val_main_v13 (F := Ideal) x (ix4 0 ch 0 0 : SP.Idx) = Ideal.rsqrt (devMean x ch + eW) := by
  rw [val_main_v13_apply, val_main_v12_apply, val_main_v10_apply, val_main_v8_apply, idx_v8, v7_chan,
    val_main_v9_apply, val_main_cst_2_apply, val_main_v11_apply, val_main_cst_3_apply]
  rfl

/-! ## The result -/

theorem ref_apply (x : SX.Idx → EReal) (g b : SC.Idx → EReal) (bb : Fin 64) (ch : Fin 256) (h w : Fin 56) :
    Cert.ReferenceIdeal.Read.val_main_v23 (F := Ideal) x g b (ix4 bb ch h w) = twoPass x g b bb ch h w := by
  rw [val_main_v23_apply, val_main_v20_apply, val_main_v22_apply, idx_v22, val_main_v21_apply, idx_v21,
    val_main_v17_apply, val_main_v19_apply, idx_v19, val_main_v18_apply, idx_v18,
    val_main_v15_apply, val_main_v14_apply, idx_v14, v3_chan, val_main_v16_apply, idx_v16, v13_chan]
  rfl

end Cert.BatchNorm.Ref

end
-- ==== Proof.BlockSums.lean ====
/-
  The arithmetic of the two kernels' bodies read at an index, over the extended reals.

  The statistics kernel keeps two per-channel columns of shape [1, 256, 1, 1]. On the first grid point it sets both to the
  zero word's value, which is 0. On every grid point it adds to the first the sum of its [2, 256, 56, 56] block over the
  block's batch, row and column axes, and to the second the same sum of the block's squares. The program takes that sum
  one axis at a time — columns, then rows, then batch —, with a change of shape between two reductions that only adds
  or moves an axis of extent one. Each one-axis reduction is the sum over that axis's coordinate, and each such change
  of shape keeps the row-major position, so at channel `ch` the three nest to
      ∑ b' : Fin 2, ∑ h : Fin 56, ∑ w : Fin 56, src (b', ch, h, w).
  The normalisation kernel multiplies its block by the scale column and adds the shift column, each column read at
  (0, ch, 0, 0) wherever the block is read at channel `ch`.
-/
import proofs.«159732_j180388626599_1_alg».proof.Proof.Spec
import proofs.«159732_j180388626599_1_alg».proof.Proof.Gen.KernelIdeal.Skeleton
import Idealize.ShloMosaic.PureOps.Ideal.Laws
import Idealize.ShloMosaic.Lib.Pipeline.Value

noncomputable section

open scoped BigOperators

namespace Cert.BatchNorm.Blk

open Idealize.ShloMosaic Idealize.ShloMosaic.ValueIdx Cert.BatchNorm Cert.KernelIdeal.Gen
open Cert.KernelIdeal (S2x256x56x56 S2x256x56 S2x256x56x1 S2x256x1 S2x256x1x1 S256x1x1 S1x256x1x1)

/-! ## The index a one-axis reduction reads: the reduced index with the coordinate put back -/

/-- Over (b, ch, r) of the block summed over columns, column `w` put back on the last axis is (b, ch, r, w). -/
private theorem lift_col (h : S2x256x56x56.Reduces [3] S2x256x56) (b : Fin 2) (ch : Fin 256) (r w : Fin 56) :
    h.lift (ix3 b ch r) w = ix4 b ch r w := by
  funext c
  match c with
  | ⟨0, _⟩ => rfl
  | ⟨1, _⟩ => rfl
  | ⟨2, _⟩ => rfl
  | ⟨3, _⟩ => rfl

/-- Over (b, ch, 0) of the [2, 256, 56, 1] array summed over rows, row `r` put back on axis 2 is (b, ch, r, 0). -/
private theorem lift_row (h : S2x256x56x1.Reduces [2] S2x256x1) (b : Fin 2) (ch : Fin 256) (r : Fin 56) :
    h.lift (ix3 b ch (0 : Fin 1)) r = ix4 b ch r (0 : Fin 1) := by
  funext c
  match c with
  | ⟨0, _⟩ => rfl
  | ⟨1, _⟩ => rfl
  | ⟨2, _⟩ => rfl
  | ⟨3, _⟩ => rfl

/-- Over (ch, 0, 0) of the [2, 256, 1, 1] array summed over batch, entry `b` put back on axis 0 is (b, ch, 0, 0). -/
private theorem lift_batch (h : S2x256x1x1.Reduces [0] S256x1x1) (ch : Fin 256) (b : Fin 2) :
    h.lift (ix3 ch (0 : Fin 1) (0 : Fin 1)) b = ix4 b ch (0 : Fin 1) (0 : Fin 1) := by
  funext c
  match c with
  | ⟨0, _⟩ => rfl
  | ⟨1, _⟩ => rfl
  | ⟨2, _⟩ => rfl
  | ⟨3, _⟩ => rfl

/-! ## Each reduction read at an index -/

/-- The sum over columns at (b, ch, r). -/
private theorem red_col (src : FVec Ideal S2x256x56x56 .f32) (h : S2x256x56x56.Reduces [3] S2x256x56)
    (hφ : FKind.Formats .f32) (hacc : (0x00000000#32 : BitVec 32) = FKind.add.neutral .f32 hφ)
    (b : Fin 2) (ch : Fin 256) (r : Fin 56) :
    multiReduction .add [3] S2x256x56 src 0x00000000#32 h hφ hacc (ix3 b ch r) = ∑ w : Fin 56, src (ix4 b ch r w) := by
  refine (Ideal.multiReduction_add_single src _ h hφ hacc _).trans ?_
  exact Finset.sum_congr rfl fun w _ => congrArg src (lift_col h b ch r w)

/-- The sum over rows at (b, ch, 0). -/
private theorem red_row (src : FVec Ideal S2x256x56x1 .f32) (h : S2x256x56x1.Reduces [2] S2x256x1)
    (hφ : FKind.Formats .f32) (hacc : (0x00000000#32 : BitVec 32) = FKind.add.neutral .f32 hφ)
    (b : Fin 2) (ch : Fin 256) :
    multiReduction .add [2] S2x256x1 src 0x00000000#32 h hφ hacc (ix3 b ch (0 : Fin 1))
      = ∑ r : Fin 56, src (ix4 b ch r (0 : Fin 1)) := by
  refine (Ideal.multiReduction_add_single src _ h hφ hacc _).trans ?_
  exact Finset.sum_congr rfl fun r _ => congrArg src (lift_row h b ch r)

/-- The sum over batch at (ch, 0, 0). -/
private theorem red_batch (src : FVec Ideal S2x256x1x1 .f32) (h : S2x256x1x1.Reduces [0] S256x1x1)
    (hφ : FKind.Formats .f32) (hacc : (0x00000000#32 : BitVec 32) = FKind.add.neutral .f32 hφ) (ch : Fin 256) :
    multiReduction .add [0] S256x1x1 src 0x00000000#32 h hφ hacc (ix3 ch (0 : Fin 1) (0 : Fin 1))
      = ∑ b : Fin 2, src (ix4 b ch (0 : Fin 1) (0 : Fin 1)) := by
  refine (Ideal.multiReduction_add_single src _ h hφ hacc _).trans ?_
  exact Finset.sum_congr rfl fun b _ => congrArg src (lift_batch h ch b)

/-! ## Each change of shape read at an index: the same row-major position -/

section Casts
variable {α : Type}

/-- [2, 256, 56] viewed [2, 256, 56, 1]: (b, ch, r, 0) reads (b, ch, r); both sit at position (b · 256 + ch) · 56 + r. -/
private theorem cast_col (v : S2x256x56.Idx → α) (h : S2x256x56.ShapeCasts S2x256x56x1) (b : Fin 2) (ch : Fin 256) (r : Fin 56) :
    shapeCast S2x256x56x1 v h (ix4 b ch r (0 : Fin 1)) = v (ix3 b ch r) :=
  shapeCast_apply v h _ _ (by
    rewrite [Shape.rowMajor_val_three, Shape.rowMajor_val_four]
    show (b.val * 256 + ch.val) * 56 + r.val = ((b.val * 256 + ch.val) * 56 + r.val) * 1 + 0
    omega)

/-- [2, 256, 1] viewed [2, 256, 1, 1]: (b, ch, 0, 0) reads (b, ch, 0); both sit at position b · 256 + ch. -/
private theorem cast_row (v : S2x256x1.Idx → α) (h : S2x256x1.ShapeCasts S2x256x1x1) (b : Fin 2) (ch : Fin 256) :
    shapeCast S2x256x1x1 v h (ix4 b ch (0 : Fin 1) (0 : Fin 1)) = v (ix3 b ch (0 : Fin 1)) :=
  shapeCast_apply v h _ _ (by
    rewrite [Shape.rowMajor_val_three, Shape.rowMajor_val_four]
    show (b.val * 256 + ch.val) * 1 + 0 = ((b.val * 256 + ch.val) * 1 + 0) * 1 + 0
    omega)

/-- [256, 1, 1] viewed [1, 256, 1, 1]: (0, ch, 0, 0) reads (ch, 0, 0); both sit at position ch. -/
private theorem cast_batch (v : S256x1x1.Idx → α) (h : S256x1x1.ShapeCasts S1x256x1x1) (ch : Fin 256) :
    shapeCast S1x256x1x1 v h (ix4 (0 : Fin 1) ch (0 : Fin 1) (0 : Fin 1)) = v (ix3 ch (0 : Fin 1) (0 : Fin 1)) :=
  shapeCast_apply v h _ _ (by
    rewrite [Shape.rowMajor_val_three, Shape.rowMajor_val_four]
    show (ch.val * 1 + 0) * 1 + 0 = ((0 * 256 + ch.val) * 1 + 0) * 1 + 0
    omega)

end Casts

/-! ## The three reductions nested: a block's per-channel sum -/

/-- The program's sum of a block over columns, rows and batch, as the [1, 256, 1, 1] column it is added to. -/
private def chanCol (src : FVec Ideal S2x256x56x56 .f32) : FVec Ideal S1x256x1x1 .f32 :=
  shapeCast S1x256x1x1
    (multiReduction .add [0] S256x1x1
      (shapeCast S2x256x1x1
        (multiReduction .add [2] S2x256x1
          (shapeCast S2x256x56x1
            (multiReduction .add [3] S2x256x56 src 0x00000000#32 reduces_S2x256x56x56_S2x256x56 (.inl rfl) rfl)
            shapeCasts_S2x256x56_S2x256x56x1)
          0x00000000#32 reduces_S2x256x56x1_S2x256x1 (.inl rfl) rfl)
        shapeCasts_S2x256x1_S2x256x1x1)
      0x00000000#32 reduces_S2x256x1x1_S256x1x1 (.inl rfl) rfl)
    shapeCasts_S256x1x1_S1x256x1x1

/-- At channel `ch` it is the triple sum of the block's entries of that channel. -/
private theorem chanCol_apply (src : FVec Ideal S2x256x56x56 .f32) (ch : Fin 256) :
    chanCol src (ix4 0 ch 0 0) = ∑ b' : Fin 2, ∑ h : Fin 56, ∑ w : Fin 56, src (ix4 b' ch h w) := by
  unfold chanCol
  refine (cast_batch _ _ ch).trans ?_
  refine (red_batch _ _ _ _ ch).trans ?_
  refine Finset.sum_congr rfl fun b' _ => ?_
  refine (cast_row _ _ b' ch).trans ?_
  refine (red_row _ _ _ _ b' ch).trans ?_
  refine Finset.sum_congr rfl fun r _ => ?_
  refine (cast_col _ _ b' ch r).trans ?_
  exact red_col _ _ _ _ b' ch r

/-! ## The payloads -/

theorem pay1_apply (j : SP.Idx) : k0_pay1 (F := Ideal) j = 0 := Ideal.ofBits_zero_f32

theorem pay2_apply (j : SP.Idx) : k0_pay2 (F := Ideal) j = 0 := Ideal.ofBits_zero_f32

theorem pay3_apply (x0 : SB.Idx → EReal) (acc : SP.Idx → EReal) (ch : Fin 256) :
    k0_pay3 (F := Ideal) x0 acc (ix4 0 ch 0 0)
      = acc (ix4 0 ch 0 0) + ∑ b' : Fin 2, ∑ h : Fin 56, ∑ w : Fin 56, x0 (ix4 b' ch h w) := by
  have e : k0_pay3 (F := Ideal) x0 acc
      = addf (shapeCast S1x256x1x1 acc shapeCasts_S1x256x1x1_S1x256x1x1) (chanCol x0) := rfl
  rw [e, addf_apply, shapeCast_self, chanCol_apply]

theorem pay4_apply (x0 : SB.Idx → EReal) (acc : SP.Idx → EReal) (ch : Fin 256) :
    k0_pay4 (F := Ideal) x0 acc (ix4 0 ch 0 0)
      = acc (ix4 0 ch 0 0) + ∑ b' : Fin 2, ∑ h : Fin 56, ∑ w : Fin 56, x0 (ix4 b' ch h w) * x0 (ix4 b' ch h w) := by
  have e : k0_pay4 (F := Ideal) x0 acc
      = addf (shapeCast S1x256x1x1 acc shapeCasts_S1x256x1x1_S1x256x1x1) (chanCol (mulf x0 x0)) := rfl
  rw [e, addf_apply, shapeCast_self, chanCol_apply]
  rfl

/-- A [1, 256, 1, 1] column spread over the block reads (0, ch, 0, 0) at (b', ch, h, w). -/
private theorem spread_apply (v : FVec Ideal S1x256x1x1 .f32) (b' : Fin 2) (ch : Fin 256) (h w : Fin 56) :
    broadcastTo S2x256x56x56 v broadcasts_S1x256x1x1_S2x256x56x56 (ix4 b' ch h w) = v (ix4 0 ch 0 0) :=
  broadcastTo_apply v broadcasts_S1x256x1x1_S2x256x56x56 _ _ fun a =>
    match a with
    | ⟨0, _⟩ => by show 0 = if (1 : Nat) = 1 then 0 else b'.val; rw [if_pos rfl]
    | ⟨1, _⟩ => by show ch.val = if (256 : Nat) = 1 then 0 else ch.val; rw [if_neg (by decide)]
    | ⟨2, _⟩ => by show 0 = if (1 : Nat) = 1 then 0 else h.val; rw [if_pos rfl]
    | ⟨3, _⟩ => by show 0 = if (1 : Nat) = 1 then 0 else w.val; rw [if_pos rfl]

theorem k1_pay1_apply (x0 : SB.Idx → EReal) (sc sh : SP.Idx → EReal) (b' : Fin 2) (ch : Fin 256) (h w : Fin 56) :
    k1_pay1 (F := Ideal) x0 sc sh (ix4 b' ch h w) = x0 (ix4 b' ch h w) * sc (ix4 0 ch 0 0) + sh (ix4 0 ch 0 0) := by
  have e : k1_pay1 (F := Ideal) x0 sc sh
      = addf (mulf x0 (broadcastTo S2x256x56x56 (shapeCast S1x256x1x1 sc shapeCasts_S1x256x1x1_S1x256x1x1)
                broadcasts_S1x256x1x1_S2x256x56x56))
          (broadcastTo S2x256x56x56 (shapeCast S1x256x1x1 sh shapeCasts_S1x256x1x1_S1x256x1x1)
            broadcasts_S1x256x1x1_S2x256x56x56) := rfl
  rw [e, addf_apply, mulf_apply, spread_apply, spread_apply, shapeCast_self, shapeCast_self]

end Cert.BatchNorm.Blk

end
-- ==== Proof.Stats.lean ====
/-
  The first pallas_call: per channel, the sum and the sum of squares of x over batch, row and column, accumulated
  over a grid of 32 points, each point adding the sums over its own block of two batch entries to what the point
  before left; the first point starts from zero.

  After point n the accumulators hold, at channel ch, the sum over points 0 … n of the block sums; the block of
  point t holds the batch entries 2t and 2t+1, so after the last point the 32 · 2 block rows are the 64 batch
  entries and the accumulators are the channel sums of x and of x². The one write-back, after the last point,
  writes the whole [1,256,1,1] array.
-/
import proofs.«159732_j180388626599_1_alg».proof.Proof.Spec
import proofs.«159732_j180388626599_1_alg».proof.Proof.BlockSums
import proofs.«159732_j180388626599_1_alg».proof.Proof.Gen.KernelIdeal.Frame
import Idealize.ShloMosaic.Lib.Pipeline.Value
import Idealize.ShloMosaic.Lib.Tactic

set_option maxRecDepth 16384

noncomputable section

open scoped BigOperators

namespace Cert.BatchNorm.Stats

open Idealize.ShloMosaic Idealize.ShloMosaic.TcCoe Idealize.SL.Sem Idealize.ShloMosaic.ValueIdx Cert.BatchNorm
open Cert.KernelIdeal Cert.KernelIdeal.Gen
open Idealize.ShloMosaic.Pipeline (Dat)

/-! ## What one run of the body leaves in the accumulators -/

section Pieces

variable {F : FTy → Type} [FloatOps F]

theorem hz : (![0, 0, 0, 0] : Fin 4 → Nat) = fun _ => 0 := funext fun a => by fin_cases a <;> rfl

/-- Not the first point: the sum accumulator, holding `xo1`, is left at `xo1` plus the block's sums. -/
theorem out_B_1 (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : ¬cond0_0 i) (x0 : Vec F S2x256x56x56 .f32) (xo1 xo2 : Vec F S1x256x1x1 .f32) :
    out0_B_1 c i a1 h1 a2 h2 a3 h3 hc x0 xo1 xo2 = k0_pay3 x0 xo1 := by
  unfold out0_B_1
  rw [View.read_writes_eq_canon _ _ _ (cover0_B_1 c i a1 h1 a2 h2 a3 h3 hc x0 xo1 xo2)]
  unfold kernelRun0_B
  dsimp only
  rw [View.canon_unit_zero hz]
  simp only [View.readAt_eq_ld, h1.read_unread, h2.read_unread, View.ld_unit_zero (S := S2x256x56x56) hz,
    View.ld_unit_zero (S := S1x256x1x1) hz]

/-- Not the first point: the sum-of-squares accumulator, holding `xo2`, is left at `xo2` plus the block's sums of squares. -/
theorem out_B_2 (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : ¬cond0_0 i) (x0 : Vec F S2x256x56x56 .f32) (xo1 xo2 : Vec F S1x256x1x1 .f32) :
    out0_B_2 c i a1 h1 a2 h2 a3 h3 hc x0 xo1 xo2 = k0_pay4 x0 xo2 := by
  unfold out0_B_2
  rw [View.read_writes_eq_canon _ _ _ (cover0_B_2 c i a1 h1 a2 h2 a3 h3 hc x0 xo1 xo2)]
  unfold kernelRun0_B
  dsimp only
  rw [View.canon_unit_zero hz]
  simp only [View.readAt_eq_ld, h1.read_unread, h3.read_unread, View.ld_unit_zero (S := S2x256x56x56) hz,
    View.ld_unit_zero (S := S1x256x1x1) hz]

/-- The first point: the sum accumulator is reset to zero, read back, and left at zero plus the block's sums. -/
theorem out_A_1 (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : cond0_0 i) (x0 : Vec F S2x256x56x56 .f32) :
    out0_A_1 c i a1 h1 a2 h2 a3 h3 hc x0 = k0_pay3 x0 k0_pay1 := by
  unfold out0_A_1
  rw [View.read_writes_eq_canon _ _ _ (cover0_A_1 c i a1 h1 a2 h2 a3 h3 hc x0)]
  unfold kernelRun0_A
  dsimp only
  sl_unfold_words
  rw [View.canon_cons_unit_zero (S := S1x256x1x1) hz, View.readCov_unit_zero (S := S1x256x1x1) _ hz]
  simp only [View.readAt_eq_ld, h1.read_unread, View.ld_unit_zero (S := S2x256x56x56) hz,
    View.ld_unit_zero (S := S1x256x1x1) hz]

/-- The first point: the sum-of-squares accumulator likewise. -/
theorem out_A_2 (c : Dev nD) (i : grid0.Coords) (a1 : Memref sig .tc .vmem S2x256x56x56 .f32) (h1 : a1.IsWhole)
    (a2 : Memref sig .tc .vmem S1x256x1x1 .f32) (h2 : a2.IsWhole) (a3 : Memref sig .tc .vmem S1x256x1x1 .f32) (h3 : a3.IsWhole)
    (hc : cond0_0 i) (x0 : Vec F S2x256x56x56 .f32) :
    out0_A_2 c i a1 h1 a2 h2 a3 h3 hc x0 = k0_pay4 x0 k0_pay2 := by
  unfold out0_A_2
  rw [View.read_writes_eq_canon _ _ _ (cover0_A_2 c i a1 h1 a2 h2 a3 h3 hc x0)]
  unfold kernelRun0_A
  dsimp only
  sl_unfold_words
  rw [View.canon_cons_unit_zero (S := S1x256x1x1) hz, View.readCov_unit_zero (S := S1x256x1x1) _ hz]
  simp only [View.readAt_eq_ld, h1.read_unread, View.ld_unit_zero (S := S2x256x56x56) hz,
    View.ld_unit_zero (S := S1x256x1x1) hz]

end Pieces

/-! ## The accumulators point by point, at the extended reals -/

section Values

variable (V : (c : Dev nD) → (b : Ref sig .tc) → Buf (Elt Ideal) ((c : Thread nD τ).loc b))

/-- The array x the region is entered at, and its block at point t, at their literal types. -/
abbrev xarr (c : Dev nD) : SX.Idx → EReal := V c main_arg0
abbrev xblk (c : Dev nD) (t : Fin cfg0.N) : SB.Idx → EReal := iblk0 V c 0 t

/-- Batch entry 2t + b' : the b'-th row of point t's block. -/
def pairIdx (t : Fin 32) (b' : Fin 2) : Fin 64 := ⟨2 * t.val + b'.val, by have := t.isLt; have := b'.isLt; omega⟩

/-- The input window's block index at point t is (t, 0, 0, 0): decided over the grid. -/
theorem idx_facts : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- Point t's block read at (b', ch, h, w) is x at (2t + b', ch, h, w). -/
theorem xblk_apply (c : Dev nD) (t : Fin cfg0.N) (ht : t.val < 32) (b' : Fin 2) (ch : Fin 256) (h w : Fin 56) :
    xblk V c t (ix4 b' ch h w) = xarr V c (ix4 (pairIdx ⟨t.val, ht⟩ b') ch h w) := by
  obtain ⟨i0, i1, i2, i3⟩ := idx_facts t
  unfold xblk iblk0
  rw [View.read_apply]
  show V c main_arg0 _ = V c main_arg0 _
  congr 1
  funext a
  apply Fin.ext
  match a with
  | ⟨0, _⟩ => show win0_0.index t 0 * 2 + 1 * b'.val = 2 * t.val + b'.val; rw [i0]; omega
  | ⟨1, _⟩ => show win0_0.index t 1 * 256 + 1 * ch.val = ch.val; rw [i1]; omega
  | ⟨2, _⟩ => show win0_0.index t 2 * 56 + 1 * h.val = h.val; rw [i2]; omega
  | ⟨3, _⟩ => show win0_0.index t 3 * 56 + 1 * w.val = w.val; rw [i3]; omega

/-- The sum over point t's two batch entries, rows and columns of `f` at channel ch (zero past the grid). -/
def blockSum (f : SX.Idx → EReal) (ch : Fin 256) (t : ℕ) : EReal :=
  if ht : t < 32 then ∑ b' : Fin 2, ∑ h : Fin 56, ∑ w : Fin 56, f (ix4 (pairIdx ⟨t, ht⟩ b') ch h w) else 0

/-- After point n the accumulators hold, at channel ch, the block sums of x and of x² over points 0 … n. -/
theorem outs_eq (c : Dev nD) (ch : Fin 256) : ∀ (n : ℕ) (hn : n < cfg0.N),
    ((outsAt0 V c n hn).1 : SP.Idx → EReal) (ix4 0 ch 0 0) = ∑ t ∈ Finset.range (n + 1), blockSum (xarr V c) ch t
    ∧ ((outsAt0 V c n hn).2 : SP.Idx → EReal) (ix4 0 ch 0 0)
        = ∑ t ∈ Finset.range (n + 1), blockSum (fun i => xarr V c i * xarr V c i) ch t
  | 0, hn => by
    have h32 : (0 : ℕ) < 32 := by decide
    rw [outsAt0_A V c ⟨0, hn⟩ rfl]
    dsimp only
    rw [out_A_1, out_A_2, Finset.sum_range_one, Finset.sum_range_one]
    constructor
    · refine (Blk.pay3_apply (xblk V c ⟨0, hn⟩) _ ch).trans ?_
      rw [Blk.pay1_apply, zero_add]
      unfold blockSum
      rw [dif_pos h32]
      refine Finset.sum_congr rfl fun b' _ => Finset.sum_congr rfl fun h _ => Finset.sum_congr rfl fun w _ => ?_
      exact xblk_apply V c ⟨0, hn⟩ h32 b' ch h w
    · refine (Blk.pay4_apply (xblk V c ⟨0, hn⟩) _ ch).trans ?_
      rw [Blk.pay2_apply, zero_add]
      unfold blockSum
      rw [dif_pos h32]
      refine Finset.sum_congr rfl fun b' _ => Finset.sum_congr rfl fun h _ => Finset.sum_congr rfl fun w _ => ?_
      rw [xblk_apply V c ⟨0, hn⟩ h32 b' ch h w]
  | n + 1, hn => by
    have hN : cfg0.N = 32 := N_0
    have h32 : n + 1 < 32 := by omega
    have hB : ¬(⟨n + 1, hn⟩ : Fin cfg0.N).val % 32 = 0 := by dsimp only; omega
    obtain ⟨ih1, ih2⟩ := outs_eq c ch n (Nat.lt_of_succ_lt hn)
    rw [outsAt0_B V c ⟨n + 1, hn⟩ hB]
    dsimp only
    rw [out_B_1, out_B_2, Finset.sum_range_succ _ (n + 1), Finset.sum_range_succ _ (n + 1)]
    constructor
    · refine (Blk.pay3_apply (xblk V c ⟨n + 1, hn⟩) _ ch).trans ?_
      refine congrArg₂ (· + ·) ih1 ?_
      unfold blockSum
      rw [dif_pos h32]
      refine Finset.sum_congr rfl fun b' _ => Finset.sum_congr rfl fun h _ => Finset.sum_congr rfl fun w _ => ?_
      exact xblk_apply V c ⟨n + 1, hn⟩ h32 b' ch h w
    · refine (Blk.pay4_apply (xblk V c ⟨n + 1, hn⟩) _ ch).trans ?_
      refine congrArg₂ (· + ·) ih2 ?_
      unfold blockSum
      rw [dif_pos h32]
      refine Finset.sum_congr rfl fun b' _ => Finset.sum_congr rfl fun h _ => Finset.sum_congr rfl fun w _ => ?_
      rw [xblk_apply V c ⟨n + 1, hn⟩ h32 b' ch h w]

/-! ## The 32 blocks of two batch entries are the 64 batch entries -/

/-- A sum over the 64 batch entries, grouped by point and row within the block. -/
theorem sum_pairs (G : Fin 64 → EReal) : ∑ b : Fin 64, G b = ∑ t : Fin 32, ∑ b' : Fin 2, G (pairIdx t b') := by
  rw [← Fintype.sum_prod_type' (f := fun t b' => G (pairIdx t b'))]
  refine (Fintype.sum_equiv (finProdFinEquiv (m := 32) (n := 2)) _ _ fun p => ?_).symm
  refine congrArg G (Fin.ext ?_)
  show 2 * p.1.val + p.2.val = p.2.val + 2 * p.1.val
  omega

/-- The block sums over all 32 points are the channel sum. -/
theorem blockSums_total (f : SX.Idx → EReal) (ch : Fin 256) :
    ∑ t ∈ Finset.range 32, blockSum f ch t = chanSum f ch := by
  unfold chanSum
  rw [sum_pairs, ← Fin.sum_univ_eq_sum_range (fun t => blockSum f ch t) 32]
  refine Finset.sum_congr rfl fun t _ => ?_
  unfold blockSum
  rw [dif_pos t.isLt]

end Values

/-! ## The write-back: after the last point the accumulators are the region's two result arrays -/

section Final

variable (V : (c : Dev nD) → (b : Ref sig .tc) → Buf (Elt Ideal) ((c : Thread nD τ).loc b))

/-- The last grid point. -/
abbrev tLast : Fin cfg0.N := ⟨31, by rw [show cfg0.N = 32 from N_0]; decide⟩

/-- The region's two result arrays after its run, at their literal type. -/
abbrev sumArr (c : Dev nD) : SP.Idx → EReal := (dat0 (F := Ideal) V c).arrAt 1 cfg0.N
abbrev sqArr (c : Dev nD) : SP.Idx → EReal := (dat0 (F := Ideal) V c).arrAt 2 cfg0.N

/-- The sum accumulator is written back once, after the last point, as the whole array. -/
theorem flushed_eq1 (c : Dev nD) (t : Fin cfg0.N) (hf : (cfg0.win 1).flush t = true) :
    (dat0 (F := Ideal) V c).flushed 1 t = ((cfg0.win 1).blk t).view.read (Elt Ideal) (outsAt0 V c 31 tLast.isLt).1 := by
  have hN : cfg0.N = 32 := N_0
  have h31 : t.val = 31 := by have := (flush0_1 t).mp hf; have := t.isLt; omega
  obtain rfl : t = tLast := Fin.ext h31
  show (cfg0.win 1).cut (grid0.coords tLast) ((dat0 V c).after 1 tLast) = _
  rw [after0_1]
  have hz' : (fun a => win0_1.index tLast a * main_v0_0.ty.shape.size a) = fun _ => 0 :=
    funext fun a => by fin_cases a <;> decide +kernel
  exact (Memref.read_access_unit_zero (Elt Ideal) main_v0_0 hz' (fun a => by rw [congrFun hz' a]; simp) (outsAt0 V c 31 tLast.isLt).1).symm

/-- The sum-of-squares accumulator likewise. -/
theorem flushed_eq2 (c : Dev nD) (t : Fin cfg0.N) (hf : (cfg0.win 2).flush t = true) :
    (dat0 (F := Ideal) V c).flushed 2 t = ((cfg0.win 2).blk t).view.read (Elt Ideal) (outsAt0 V c 31 tLast.isLt).2 := by
  have hN : cfg0.N = 32 := N_0
  have h31 : t.val = 31 := by have := (flush0_2 t).mp hf; have := t.isLt; omega
  obtain rfl : t = tLast := Fin.ext h31
  show (cfg0.win 2).cut (grid0.coords tLast) ((dat0 V c).after 2 tLast) = _
  rw [after0_2]
  have hz' : (fun a => win0_2.index tLast a * main_v0_1.ty.shape.size a) = fun _ => 0 :=
    funext fun a => by fin_cases a <;> decide +kernel
  exact (Memref.read_access_unit_zero (Elt Ideal) main_v0_1 hz' (fun a => by rw [congrFun hz' a]; simp) (outsAt0 V c 31 tLast.isLt).2).symm

/-- That one block is the whole [1,256,1,1] array, so the array ends at the accumulator after the last point. -/
theorem final1 (c : Dev nD) : (dat0 (F := Ideal) V c).arrAt 1 cfg0.N = (outsAt0 V c 31 tLast.isLt).1 :=
  (dat0 V c).arrAt_eq_of_cover 1 (outsAt0 V c 31 tLast.isLt).1 (flushed_eq1 V c) fun i =>
    ⟨tLast, (flush0_1 tLast).mpr rfl, by
      show i ∈ ((View.whole main_v0_0).slice (win0_1.rect tLast)).set
      rw [View.set_slice_whole, Rect.mem_set_unit]
      intro a
      have h0 : (i 0 : Nat) < 1 := (i 0).isLt
      have h1 : (i 1 : Nat) < 256 := (i 1).isLt
      have h2 : (i 2 : Nat) < 1 := (i 2).isLt
      have h3 : (i 3 : Nat) < 1 := (i 3).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 256 from by decide +kernel]; omega
      | ⟨2, _⟩ => show win0_1.index tLast 2 * win0_1.size 2 ≤ (i 2 : Nat) ∧ (i 2 : Nat) < win0_1.index tLast 2 * win0_1.size 2 + win0_1.xsize (grid0.coords tLast) 2
                  rw [show win0_1.index tLast 2 * win0_1.size 2 = 0 from by decide +kernel, show win0_1.xsize (grid0.coords tLast) 2 = 1 from by decide +kernel]; omega
      | ⟨3, _⟩ => show win0_1.index tLast 3 * win0_1.size 3 ≤ (i 3 : Nat) ∧ (i 3 : Nat) < win0_1.index tLast 3 * win0_1.size 3 + win0_1.xsize (grid0.coords tLast) 3
                  rw [show win0_1.index tLast 3 * win0_1.size 3 = 0 from by decide +kernel, show win0_1.xsize (grid0.coords tLast) 3 = 1 from by decide +kernel]; omega⟩

theorem final2 (c : Dev nD) : (dat0 (F := Ideal) V c).arrAt 2 cfg0.N = (outsAt0 V c 31 tLast.isLt).2 :=
  (dat0 V c).arrAt_eq_of_cover 2 (outsAt0 V c 31 tLast.isLt).2 (flushed_eq2 V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 1 := (i 0).isLt
      have h1 : (i 1 : Nat) < 256 := (i 1).isLt
      have h2 : (i 2 : Nat) < 1 := (i 2).isLt
      have h3 : (i 3 : Nat) < 1 := (i 3).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 256 from by decide +kernel]; omega
      | ⟨2, _⟩ => show win0_2.index tLast 2 * win0_2.size 2 ≤ (i 2 : Nat) ∧ (i 2 : Nat) < win0_2.index tLast 2 * win0_2.size 2 + win0_2.xsize (grid0.coords tLast) 2
                  rw [show win0_2.index tLast 2 * win0_2.size 2 = 0 from by decide +kernel, show win0_2.xsize (grid0.coords tLast) 2 = 1 from by decide +kernel]; omega
      | ⟨3, _⟩ => show win0_2.index tLast 3 * win0_2.size 3 ≤ (i 3 : Nat) ∧ (i 3 : Nat) < win0_2.index tLast 3 * win0_2.size 3 + win0_2.xsize (grid0.coords tLast) 3
                  rw [show win0_2.index tLast 3 * win0_2.size 3 = 0 from by decide +kernel, show win0_2.xsize (grid0.coords tLast) 3 = 1 from by decide +kernel]; omega⟩

/-- So the first result array holds each channel's sum of x, -/
theorem sumArr_apply (c : Dev nD) (ch : Fin 256) : sumArr V c (ix4 0 ch 0 0) = chanSum (xarr V c) ch := by
  unfold sumArr
  rw [final1 V c]
  exact ((outs_eq V c ch 31 tLast.isLt).1).trans (blockSums_total _ ch)

/-- and the second each channel's sum of x². -/
theorem sqArr_apply (c : Dev nD) (ch : Fin 256) : sqArr V c (ix4 0 ch 0 0) = chanSum (fun i => xarr V c i * xarr V c i) ch := by
  unfold sqArr
  rw [final2 V c]
  exact ((outs_eq V c ch 31 tLast.isLt).2).trans (blockSums_total _ ch)

end Final

end Cert.BatchNorm.Stats

end
-- ==== Proof.Norm.lean ====
import proofs.«159732_j180388626599_1_alg».proof.Proof.Spec
import proofs.«159732_j180388626599_1_alg».proof.Proof.BlockSums
import proofs.«159732_j180388626599_1_alg».proof.Proof.Gen.KernelIdeal.Frame
import Idealize.ShloMosaic.Lib.Pipeline.Value

noncomputable section

open scoped BigOperators

namespace Cert.BatchNorm.Norm

open Idealize.ShloMosaic Idealize.ShloMosaic.TcCoe Idealize.SL.Sem Idealize.ShloMosaic.ValueIdx Cert.BatchNorm
open Cert.KernelIdeal Cert.KernelIdeal.Gen

variable (V : (c : Dev nD) → (b : Ref sig .tc) → Buf (Elt Ideal) ((c : Thread nD τ).loc b))

/-- The arrays the second region is entered at, and its result array after its run, at their literal types. -/
abbrev xarr (c : Dev nD) : SX.Idx → EReal := V c main_arg0
abbrev scarr (c : Dev nD) : SP.Idx → EReal := V c main_v12
abbrev sharr (c : Dev nD) : SP.Idx → EReal := V c main_v14
abbrev outarr (c : Dev nD) : SX.Idx → EReal := (dat1 (F := Ideal) V c).arrAt 3 cfg1.N

/-- The four zero offsets of a whole-block rectangle are the zero function. -/
theorem zero_offsets : (![0, 0, 0, 0] : Fin 4 → Nat) = fun _ => 0 :=
  funext fun a => match a with | ⟨0, _⟩ => rfl | ⟨1, _⟩ => rfl | ⟨2, _⟩ => rfl | ⟨3, _⟩ => rfl

/-- The block indices at every grid point: the input block of x and the output block move with the point along the
    batch axis and sit at 0 on the other three; the scale and shift columns sit at block index 0 on every axis. -/
theorem block_indices : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = 0 ∧ win1_1.index t (1 : Fin 4) = 0 ∧ win1_1.index t (2 : Fin 4) = 0 ∧ win1_1.index t (3 : Fin 4) = 0)
    ∧ (win1_2.index t (0 : Fin 4) = 0 ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

/-- The whole result as one function of the three arrays: x times its channel's scale plus its channel's shift. -/
def affine (c : Dev nD) : SX.Idx → EReal :=
  fun i => xarr V c i * scarr V c (ix4 0 (i 1) 0 0) + sharr V c (ix4 0 (i 1) 0 0)

theorem affine_apply (c : Dev nD) (bb : Fin 64) (ch : Fin 256) (h w : Fin 56) :
    affine V c (ix4 bb ch h w) = xarr V c (ix4 bb ch h w) * scarr V c (ix4 0 ch 0 0) + sharr V c (ix4 0 ch 0 0) := rfl

/-- The block of x at grid point `t` is batch entries `2t` and `2t + 1` of x, channel, row and column as they are. -/
theorem x_block (c : Dev nD) (t : Fin cfg1.N) (b' : Fin 2) (ch : Fin 256) (h w : Fin 56) (bb : Fin 64)
    (hb : bb.val = 2 * t.val + b'.val) :
    (iblk1 (F := Ideal) V c 0 t : SB.Idx → EReal) (ix4 b' ch h w) = xarr V c (ix4 bb ch h w) := by
  obtain ⟨⟨e0, e1, e2, e3⟩, -⟩ := block_indices t
  unfold iblk1
  rw [View.read_apply]
  show xarr V c (((cfg1.win 0).blk t).view.emb (ix4 b' ch h w)) = xarr V c (ix4 bb ch h w)
  refine congrArg _ (funext fun a => Fin.ext ?_)
  match a with
  | ⟨0, _⟩ => show win1_0.index t (0 : Fin 4) * 2 + 1 * b'.val = bb.val; omega
  | ⟨1, _⟩ => show win1_0.index t (1 : Fin 4) * 256 + 1 * ch.val = ch.val; omega
  | ⟨2, _⟩ => show win1_0.index t (2 : Fin 4) * 56 + 1 * h.val = h.val; omega
  | ⟨3, _⟩ => show win1_0.index t (3 : Fin 4) * 56 + 1 * w.val = w.val; omega

/-- The block of the scale column at every grid point is the whole column. -/
theorem scale_block (c : Dev nD) (t : Fin cfg1.N) (ch : Fin 256) :
    (iblk1 (F := Ideal) V c 1 t : SP.Idx → EReal) (ix4 0 ch 0 0) = scarr V c (ix4 0 ch 0 0) := by
  obtain ⟨-, ⟨e0, e1, e2, e3⟩, -⟩ := block_indices t
  unfold iblk1
  rw [View.read_apply]
  show scarr V c (((cfg1.win 1).blk t).view.emb (ix4 0 ch 0 0)) = scarr V c (ix4 0 ch 0 0)
  refine congrArg _ (funext fun a => Fin.ext ?_)
  match a with
  | ⟨0, _⟩ => show win1_1.index t (0 : Fin 4) * 1 + 1 * 0 = 0; omega
  | ⟨1, _⟩ => show win1_1.index t (1 : Fin 4) * 256 + 1 * ch.val = ch.val; omega
  | ⟨2, _⟩ => show win1_1.index t (2 : Fin 4) * 1 + 1 * 0 = 0; omega
  | ⟨3, _⟩ => show win1_1.index t (3 : Fin 4) * 1 + 1 * 0 = 0; omega

/-- The block of the shift column at every grid point is the whole column. -/
theorem shift_block (c : Dev nD) (t : Fin cfg1.N) (ch : Fin 256) :
    (iblk1 (F := Ideal) V c 2 t : SP.Idx → EReal) (ix4 0 ch 0 0) = sharr V c (ix4 0 ch 0 0) := by
  obtain ⟨-, -, ⟨e0, e1, e2, e3⟩, -⟩ := block_indices t
  unfold iblk1
  rw [View.read_apply]
  show sharr V c (((cfg1.win 2).blk t).view.emb (ix4 0 ch 0 0)) = sharr V c (ix4 0 ch 0 0)
  refine congrArg _ (funext fun a => Fin.ext ?_)
  match a with
  | ⟨0, _⟩ => show win1_2.index t (0 : Fin 4) * 1 + 1 * 0 = 0; omega
  | ⟨1, _⟩ => show win1_2.index t (1 : Fin 4) * 256 + 1 * ch.val = ch.val; omega
  | ⟨2, _⟩ => show win1_2.index t (2 : Fin 4) * 1 + 1 * 0 = 0; omega
  | ⟨3, _⟩ => show win1_2.index t (3 : Fin 4) * 1 + 1 * 0 = 0; omega

/-- Where an entry of the output block at grid point `t` sits in the result array: batch entry `2t` or `2t + 1`. -/
theorem out_block_emb (t : Fin cfg1.N) (b' : Fin 2) (ch : Fin 256) (h w : Fin 56) (bb : Fin 64)
    (hb : bb.val = 2 * t.val + b'.val) :
    (((cfg1.win 3).blk t).view.emb (ix4 b' ch h w) : SX.Idx) = ix4 bb ch h w := by
  obtain ⟨-, -, -, ⟨e0, e1, e2, e3⟩⟩ := block_indices t
  refine funext fun a => Fin.ext ?_
  match a with
  | ⟨0, _⟩ => show win1_3.index t (0 : Fin 4) * 2 + 1 * b'.val = bb.val; omega
  | ⟨1, _⟩ => show win1_3.index t (1 : Fin 4) * 256 + 1 * ch.val = ch.val; omega
  | ⟨2, _⟩ => show win1_3.index t (2 : Fin 4) * 56 + 1 * h.val = h.val; omega
  | ⟨3, _⟩ => show win1_3.index t (3 : Fin 4) * 56 + 1 * w.val = w.val; omega

/-- What the body leaves at one entry of its output block at grid point `t`: the affine map at the entry's place in the array. -/
theorem block_entry (c : Dev nD) (t : Fin cfg1.N) (b' : Fin 2) (ch : Fin 256) (h w : Fin 56) (bb : Fin 64)
    (hb : bb.val = 2 * t.val + b'.val) :
    (k1_pay1 (F := Ideal) (iblk1 V c 0 t) (iblk1 V c 1 t) (iblk1 V c 2 t) : SB.Idx → EReal) (ix4 b' ch h w)
      = affine V c (ix4 bb ch h w) := by
  refine (Blk.k1_pay1_apply (iblk1 (F := Ideal) V c 0 t) (iblk1 (F := Ideal) V c 1 t) (iblk1 (F := Ideal) V c 2 t) b' ch h w).trans ?_
  rw [x_block V c t b' ch h w bb hb, scale_block V c t ch, shift_block V c t ch]
  rfl

/-- What grid point `t` writes back is its block of the affine map of the three arrays. -/
theorem flushed_eq (c : Dev nD) (t : Fin cfg1.N) :
    (dat1 (F := Ideal) V c).flushed 3 t = ((cfg1.win 3).blk t).view.read (Elt Ideal) (affine V c) := by
  show (cfg1.win 3).cut (grid1.coords t) ((dat1 (F := Ideal) V c).after 3 t) = _
  rw [after1_3]
  unfold out1_3
  rw [View.canon_unit_zero zero_offsets]
  simp only [View.ld_unit_zero (S := S2x256x56x56) zero_offsets, View.ld_unit_zero (S := S1x256x1x1) zero_offsets]
  refine funext fun (j : SB.Idx) => ?_
  have ht : t.val < 32 := t.isLt
  have hj : (j 0).val < 2 := (j 0).isLt
  rw [eq_ix4 j]
  show (k1_pay1 (F := Ideal) (iblk1 V c 0 t) (iblk1 V c 1 t) (iblk1 V c 2 t) : SB.Idx → EReal) (ix4 (j 0) (j 1) (j 2) (j 3))
      = affine V c (((cfg1.win 3).blk t).view.emb (ix4 (j 0) (j 1) (j 2) (j 3)))
  rw [out_block_emb t (j 0) (j 1) (j 2) (j 3) ⟨2 * t.val + (j 0).val, by omega⟩ rfl]
  exact block_entry V c t (j 0) (j 1) (j 2) (j 3) ⟨2 * t.val + (j 0).val, by omega⟩ rfl

/-- An index of the array is in grid point `t`'s output block iff each coordinate is in the block's range on its axis. -/
theorem mem_out_block (t : Fin cfg1.N) (i : SX.Idx) :
    i ∈ ((cfg1.win 3).blk t).view.set
      ↔ ∀ a : Fin 4, win1_3.index t a * S2x256x56x56.size a ≤ (i a).val
          ∧ (i a).val < win1_3.index t a * S2x256x56x56.size a + S2x256x56x56.size a := by
  show i ∈ ((View.whole main_v15).slice (win1_3.rect t)).set ↔ _
  rw [View.set_slice_whole, Rect.mem_set_unit]
  exact Iff.rfl

/-- Every index of the array lies in the output block of the grid point that is half its batch coordinate. -/
theorem cover (i : SX.Idx) :
    ∃ t : Fin cfg1.N, (cfg1.win 3).flush t = true ∧ i ∈ ((cfg1.win 3).blk t).view.set := by
  have hi0 : (i 0).val < 64 := (i 0).isLt
  have hi1 : (i 1).val < 256 := (i 1).isLt
  have hi2 : (i 2).val < 56 := (i 2).isLt
  have hi3 : (i 3).val < 56 := (i 3).isLt
  have hN : cfg1.N = 32 := N_1
  let t : Fin cfg1.N := ⟨(i 0).val / 2, by rw [hN]; omega⟩
  obtain ⟨-, -, -, ⟨e0, e1, e2, e3⟩⟩ := block_indices t
  have ht : t.val = (i 0).val / 2 := rfl
  refine ⟨t, flush1_3 t, ?_⟩
  rw [mem_out_block]
  intro a
  match a with
  | ⟨0, _⟩ => show win1_3.index t (0 : Fin 4) * 2 ≤ (i 0).val ∧ (i 0).val < win1_3.index t (0 : Fin 4) * 2 + 2; omega
  | ⟨1, _⟩ => show win1_3.index t (1 : Fin 4) * 256 ≤ (i 1).val ∧ (i 1).val < win1_3.index t (1 : Fin 4) * 256 + 256; omega
  | ⟨2, _⟩ => show win1_3.index t (2 : Fin 4) * 56 ≤ (i 2).val ∧ (i 2).val < win1_3.index t (2 : Fin 4) * 56 + 56; omega
  | ⟨3, _⟩ => show win1_3.index t (3 : Fin 4) * 56 ≤ (i 3).val ∧ (i 3).val < win1_3.index t (3 : Fin 4) * 56 + 56; omega

/-- The result array after the region's run is the affine map of the three arrays it is entered at. -/
theorem out_eq_affine (c : Dev nD) : outarr V c = affine V c :=
  (dat1 (F := Ideal) V c).arrAt_eq_of_cover 3 (affine V c) (fun t _ => flushed_eq V c t) cover

/-- The second region's result array after its run, entry by entry, from the contents `V` it is entered at. -/
theorem final3 (c : Dev nD) (bb : Fin 64) (ch : Fin 256) (h w : Fin 56) :
    outarr V c (ix4 bb ch h w)
      = xarr V c (ix4 bb ch h w) * scarr V c (ix4 0 ch 0 0) + sharr V c (ix4 0 ch 0 0) :=
  (congrFun (out_eq_affine V c) (ix4 bb ch h w)).trans (affine_apply V c bb ch h w)

end Cert.BatchNorm.Norm

end
-- ==== Proof.KernelValue.lean ====
/-
  The whole kernel program, read at the extended reals: the first pallas_call leaves each channel's sum S and sum of
  squares Q of x; the host operations between the calls form μ = S/n, the scale g · rsqrt(Q/n − μ·μ + ε) and the shift
  b − μ · scale; the second pallas_call writes x · scale + shift. So the result array is the one-pass batch
  normalisation of the launch arguments, entry by entry.
-/
import proofs.«159732_j180388626599_1_alg».proof.Proof.Spec
import proofs.«159732_j180388626599_1_alg».proof.Proof.Stats
import proofs.«159732_j180388626599_1_alg».proof.Proof.Norm
import proofs.«159732_j180388626599_1_alg».proof.Proof.KernelRun
import Idealize.ShloMosaic.Lib.Pipeline.Value
import Idealize.ShloMosaic.Lib.StableHlo.Run

set_option maxRecDepth 16384

noncomputable section

open scoped BigOperators

namespace Cert.BatchNorm.Kernel

open Idealize.ShloMosaic Idealize.ShloMosaic.TcCoe Idealize.SL.Sem Idealize.ShloMosaic.ValueIdx Cert.BatchNorm
open Cert.KernelIdeal Cert.KernelIdeal.Gen
open Idealize.ShloMosaic.Pipeline (Dat)

variable (m : (ℓ : Loc nD τ sig) → Buf (Elt Ideal) ℓ) (ρ : Dev nD → PrngReg)

/-- The launch arguments at their literal types. -/
abbrev xin (c : Dev nD) : SX.Idx → EReal := m ((c.tc : Thread nD τ).loc main_arg0)
abbrev gin (c : Dev nD) : SC.Idx → EReal := m ((c.tc : Thread nD τ).loc main_arg1)
abbrev bin (c : Dev nD) : SC.Idx → EReal := m ((c.tc : Thread nD τ).loc main_arg2)

/-- The buffers the host operations between the calls read, as the first call leaves them, at their literal types. -/
abbrev s1 (c : Dev nD) : SP.Idx → EReal := W1 m ρ c (Proc.devRef .tc main_v0_0)
abbrev q1 (c : Dev nD) : SP.Idx → EReal := W1 m ρ c (Proc.devRef .tc main_v0_1)
abbrev g1 (c : Dev nD) : SC.Idx → EReal := W1 m ρ c (Proc.devRef .tc main_arg1)
abbrev b1 (c : Dev nD) : SC.Idx → EReal := W1 m ρ c (Proc.devRef .tc main_arg2)

/-- The first call's two results are the channel sums of the launch x and of its square. -/
theorem s1_apply (c : Dev nD) (ch : Fin 256) : s1 m ρ c (ix4 0 ch 0 0) = chanSum (xin m c) ch :=
  (congrFun (W1_arr m ρ c 1) (ix4 0 ch 0 0)).trans (Stats.sumArr_apply (V0 m ρ) c ch)
theorem q1_apply (c : Dev nD) (ch : Fin 256) : q1 m ρ c (ix4 0 ch 0 0) = chanSum (fun i => xin m c i * xin m c i) ch :=
  (congrFun (W1_arr m ρ c 2) (ix4 0 ch 0 0)).trans (Stats.sqArr_apply (V0 m ρ) c ch)
/-- The first call leaves weight and bias as launched. -/
theorem g1_eq (c : Dev nD) : g1 m ρ c = gin m c := W1_of_ne m ρ c main_arg1 (by decide)
theorem b1_eq (c : Dev nD) : b1 m ρ c = bin m c := W1_of_ne m ρ c main_arg2 (by decide)

/-- The count and the epsilon as the host broadcasts them. -/
abbrev nB : SP.Idx → EReal := broadcastInDim S1x256x1x1 ![] bcast_S_S1x256x1x1 (constant (F := Ideal) S_ .f32 0x48440000#32)
abbrev eB : SP.Idx → EReal := broadcastInDim S1x256x1x1 ![] bcast_S_S1x256x1x1 (constant (F := Ideal) S_ .f32 0x3727C5AC#32)

/-- The scale and the shift the second call is entered with, as the host operations' terms. -/
def scaleT (c : Dev nD) : SP.Idx → EReal :=
  mulf (F := Ideal) (φ := .f32) (shapeCast S1x256x1x1 (g1 m ρ c) shapeCasts_S256_S1x256x1x1)
    (Host.rsqrt (F := Ideal) (addf (F := Ideal) (subf (F := Ideal) (Host.divf (F := Ideal) (φ := .f32) (q1 m ρ c) nB)
      (mulf (F := Ideal) (Host.divf (F := Ideal) (φ := .f32) (s1 m ρ c) nB) (Host.divf (F := Ideal) (φ := .f32) (s1 m ρ c) nB))) eB))
def shiftT (c : Dev nD) : SP.Idx → EReal :=
  subf (F := Ideal) (φ := .f32) (shapeCast S1x256x1x1 (b1 m ρ c) shapeCasts_S256_S1x256x1x1)
    (mulf (F := Ideal) (Host.divf (F := Ideal) (φ := .f32) (s1 m ρ c) nB) (scaleT m ρ c))

theorem scarr_eq (c : Dev nD) : Norm.scarr (V2 m ρ) c = scaleT m ρ c := by
  show StableHlo.after hostOps1 (W1 m ρ c) (Proc.devRef .tc main_v12) = _
  after_results
  rfl
theorem sharr_eq (c : Dev nD) : Norm.sharr (V2 m ρ) c = shiftT m ρ c := by
  show StableHlo.after hostOps1 (W1 m ρ c) (Proc.devRef .tc main_v14) = _
  after_results
  rfl
/-- No host operation writes x, and the first call only reads it. -/
theorem xarr_eq (c : Dev nD) : Norm.xarr (V2 m ρ) c = xin m c := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- A [256] vector reshaped to [1,256,1,1], read at channel ch. -/
theorem reshape_apply (v : SC.Idx → EReal) (ch : Fin 256) :
    shapeCast S1x256x1x1 v shapeCasts_S256_S1x256x1x1 (ix4 0 ch 0 0) = v (ix1 ch) :=
  shapeCast_apply v shapeCasts_S256_S1x256x1x1 (ix4 0 ch 0 0) (ix1 ch)
    (by rewrite [Shape.rowMajor_val_one, Shape.rowMajor_val_four]
        show ch.val = (((0 : ℕ) * 256 + ch.val) * 1 + 0) * 1 + 0
        omega)

/-- The scale at channel ch is the one-pass scale of the launch arguments. -/
theorem scale_apply (c : Dev nD) (ch : Fin 256) : scaleT m ρ c (ix4 0 ch 0 0) = scale1 (xin m c) (gin m c) ch := by
  unfold scaleT scale1 sqMean mean
  show shapeCast S1x256x1x1 (g1 m ρ c) shapeCasts_S256_S1x256x1x1 (ix4 0 ch 0 0)
      * Ideal.rsqrt ((Ideal.div (q1 m ρ c (ix4 0 ch 0 0)) nW
          - Ideal.div (s1 m ρ c (ix4 0 ch 0 0)) nW * Ideal.div (s1 m ρ c (ix4 0 ch 0 0)) nW) + eW) = _
  rw [reshape_apply, s1_apply, q1_apply, g1_eq]

/-- The shift at channel ch is the one-pass shift of the launch arguments. -/
theorem shift_apply (c : Dev nD) (ch : Fin 256) :
    shiftT m ρ c (ix4 0 ch 0 0) = shift1 (xin m c) (gin m c) (bin m c) ch := by
  unfold shiftT shift1 mean
  show shapeCast S1x256x1x1 (b1 m ρ c) shapeCasts_S256_S1x256x1x1 (ix4 0 ch 0 0)
      - Ideal.div (s1 m ρ c (ix4 0 ch 0 0)) nW * scaleT m ρ c (ix4 0 ch 0 0) = _
  rw [reshape_apply, s1_apply, scale_apply, b1_eq]

/-- The result array after the second call, entry by entry. -/
theorem result_apply (c : Dev nD) (bb : Fin 64) (ch : Fin 256) (h w : Fin 56) :
    Norm.outarr (V2 m ρ) c (ix4 bb ch h w) = onePass (xin m c) (gin m c) (bin m c) bb ch h w := by
  rw [Norm.final3 (V2 m ρ) c bb ch h w, xarr_eq, scarr_eq, sharr_eq, scale_apply, shift_apply]
  rfl

/-- Every weakly fair execution of the kernel program terminates, nothing faulting, with the result array at the
    one-pass batch normalisation of the launch arguments and the arguments unchanged. -/
theorem run : θ_run defs (onTc (τ := τ) (main (F := Ideal))) ⟨m, fun _ => 0, ρ⟩ (fun r => ∀ c : Dev nD,
      r.2.mem ((c.tc : Thread nD τ).loc main_v15) = onePassArr (xin m c) (gin m c) (bin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨((hr c).1.trans (W3_arr m ρ c 3)).trans (funext fun i => by
      obtain ⟨bb, ch, h, w, rfl⟩ : ∃ (bb : Fin 64) (ch : Fin 256) (h w : Fin 56), i = ix4 bb ch h w :=
        ⟨i 0, i 1, i 2, i 3, eq_ix4 i⟩
      exact result_apply m ρ c bb ch h w), (hr c).2⟩)
    (Cert.KernelIdeal.Named.run m ρ)

end Cert.BatchNorm.Kernel

end
-- ==== Proof.lean ====
/-
  Training-mode batch normalisation, a two-call Pallas kernel against its jnp reference, over the extended reals.

  The kernel takes each channel's sum S and sum of squares Q of x in one pass over a grid, forms the mean μ = S/n and the
  variance Q/n − μ², and applies x · (g · rsqrt(var + ε)) + (b − μ · g · rsqrt(var + ε)). The reference takes the mean,
  then the mean of the squared deviations ∑ (x − μ)²/n, and applies ((x − μ) · rsqrt(var + ε)) · g + b. For finite
  inputs the two variances are one real number (∑ (x − μ)² = Q − n μ², n = 64 · 56 · 56 the number of summands), it is
  non-negative, so var + ε is positive and its reciprocal square root is a real; the two results then differ by
  re-association and distribution of real numbers only. The three frames are the programs' runs; the ideal pass
  rewrote nothing, so `preserves` is trivial.
-/
import proofs.«159732_j180388626599_1_alg».proof.Defs
import proofs.«159732_j180388626599_1_alg».proof.Proof.Gen.Kernel
import proofs.«159732_j180388626599_1_alg».proof.Proof.Gen.Kernel.Frame
import proofs.«159732_j180388626599_1_alg».proof.Proof.Gen.KernelIdeal
import proofs.«159732_j180388626599_1_alg».proof.Proof.Gen.KernelIdeal.Frame
import proofs.«159732_j180388626599_1_alg».proof.Proof.Gen.ReferenceIdeal
import proofs.«159732_j180388626599_1_alg».proof.Proof.Gen.ReferenceIdeal.Run
import proofs.«159732_j180388626599_1_alg».proof.Proof.Gen.ReferenceIdeal.Read
import proofs.«159732_j180388626599_1_alg».proof.Proof.Gen.Pre_finite_inputs
import proofs.«159732_j180388626599_1_alg».proof.Proof.Spec
import proofs.«159732_j180388626599_1_alg».proof.Proof.Law
import proofs.«159732_j180388626599_1_alg».proof.Proof.Finite
import proofs.«159732_j180388626599_1_alg».proof.Proof.RefValue
import proofs.«159732_j180388626599_1_alg».proof.Proof.KernelValue

noncomputable section

namespace Cert.Proof

open Idealize.ShloMosaic Idealize.SL.Sem Idealize.ShloMosaic.ValueIdx Cert.BatchNorm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same array: the kernel's run leaves the one-pass form of its arguments, the reference's the
    two-pass form of arguments that agree, and for finite inputs the two forms are equal entry by entry. -/
theorem algebraic : Cert.algebraic_KernelIdeal_ReferenceIdeal := by
  intro m ρ m' ρ' hpre hagree
  refine ⟨fun c => onePassArr (Kernel.xin m c) (Kernel.gin m c) (Kernel.bin m c), Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v23_eq]
  obtain ⟨hx, hg, hb⟩ := finite_of_pre (Kernel.xin m c) (Kernel.gin m c) (Kernel.bin m c) (hpre c)
  funext i
  obtain ⟨bb, ch, h, w, rfl⟩ : ∃ (bb : Fin 64) (ch : Fin 256) (h w : Fin 56), i = ix4 bb ch h w :=
    ⟨i 0, i 1, i 2, i 3, eq_ix4 i⟩
  exact (Ref.ref_apply (Kernel.xin m c) (Kernel.gin m c) (Kernel.bin m c) bb ch h w).trans
    (onePass_eq_twoPass (Kernel.xin m c) (Kernel.gin m c) (Kernel.bin m c) hx hg hb bb ch h w).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
